-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S64x128 : Shape := ⟨2, ![64, 128]⟩
abbrev S128x64 : Shape := ⟨2, ![128, 64]⟩
abbrev S64 : Shape := ⟨1, ![64]⟩
abbrev S128x128 : Shape := ⟨2, ![128, 128]⟩
abbrev S128 : Shape := ⟨1, ![128]⟩
abbrev S128x32000 : Shape := ⟨2, ![128, 32000]⟩
abbrev S32000 : Shape := ⟨1, ![32000]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32000 : S_.BroadcastsInDim S128x32000 (![] : Fin 0 → Fin S128x32000.rank)
  reducesTo_S128x32000_S_d0_1 : S128x32000.ReducesTo [0, 1] S_
  bcast_S_S32000 : S_.BroadcastsInDim S32000 (![] : Fin 0 → Fin S32000.rank)
  reducesTo_S32000_S_d0 : S32000.ReducesTo [0] S_

variable [Facts]

def fn_part2 {F : FTy → Type} [FloatOps F] (main_arg7 : FVec F S32000 .f32) (main_v33 : IVec S_ 1) : IVec S_ 1 :=
  let main_v34 : FVec F S32000 .f32 := Host.absf main_arg7
  let main_cst_12 : FVec F S_ .f32 := constant S_ .f32 0x7F800000#32
  let main_v35 : FVec F S32000 .f32 := broadcastInDim S32000 ![] bcast_S_S32000 main_cst_12
  let main_v36 : IVec S32000 1 := cmpf .olt main_v34 main_v35
  let main_c_13 : IVec S_ 1 := constantI S_ 1 1#1
  let main_v37 : IVec S_ 1 := (fun x v => Host.reduce IntOp.andi x v reducesTo_S32000_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x32000 .f32) (main_arg7 : FVec F S32000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32000 .f32 := Host.absf main_arg6
  let main_cst_10 : FVec F S_ .f32 := constant S_ .f32 0x7F800000#32
  let main_v30 : FVec F S128x32000 .f32 := broadcastInDim S128x32000 ![] bcast_S_S128x32000 main_cst_10
  let main_v31 : IVec S128x32000 1 := cmpf .olt main_v29 main_v30
  let main_c_11 : IVec S_ 1 := constantI S_ 1 1#1
  let main_v32 : IVec S_ 1 := (fun x v => Host.reduce IntOp.andi x v reducesTo_S128x32000_S_d0_1 h_S_) main_v31 main_c_11
  let main_v33 : IVec S_ 1 := andi main_v28 main_v32
  fn_part2 (F := F) main_arg7 main_v33

def fn {F : FTy → Type} [FloatOps F] (main_arg0 : FVec F S8192x128 .f32) (main_arg1 : FVec F S64x128 .f32) (main_arg2 : FVec F S128x64 .f32) (main_arg3 : FVec F S64 .f32) (main_arg4 : FVec F S128x128 .f32) (main_arg5 : FVec F S128 .f32) (main_arg6 : FVec F S128x32000 .f32) (main_arg7 : FVec F S32000 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S8192x128 : Shape := ⟨2, ![8192, 128]⟩
abbrev S64x128 : Shape := ⟨2, ![64, 128]⟩
abbrev S128x64 : Shape := ⟨2, ![128, 64]⟩
abbrev S64 : Shape := ⟨1, ![64]⟩
abbrev S128x128 : Shape := ⟨2, ![128, 128]⟩
abbrev S128 : Shape := ⟨1, ![128]⟩
abbrev S128x32000 : Shape := ⟨2, ![128, 32000]⟩
abbrev S32000 : Shape := ⟨1, ![32000]⟩
abbrev S1x64 : Shape := ⟨2, ![1, 64]⟩
abbrev S1x128 : Shape := ⟨2, ![1, 128]⟩
abbrev S1x32000 : Shape := ⟨2, ![1, 32000]⟩
abbrev S1024x128 : Shape := ⟨2, ![1024, 128]⟩
abbrev S1024x64 : Shape := ⟨2, ![1024, 64]⟩
abbrev S1024 : Shape := ⟨1, ![1024]⟩
abbrev S1024x1 : Shape := ⟨2, ![1024, 1]⟩
abbrev S8192x32000 : Shape := ⟨2, ![8192, 32000]⟩
abbrev S128x1280 : Shape := ⟨2, ![128, 1280]⟩
abbrev S1x1280 : Shape := ⟨2, ![1, 1280]⟩
abbrev S1024x1280 : Shape := ⟨2, ![1024, 1280]⟩

abbrev nBuf : Space → Nat
  | .hbm => 14
  | .vmem => 17
  | .smem => 0
  | _ => 0

abbrev bufTy : (tb : Table) → Fin (tcTables nBuf tb) → BufTy
  | .hbm, ⟨0, _⟩ => ⟨S8192x128, .f32⟩
  | .hbm, ⟨1, _⟩ => ⟨S64x128, .f32⟩
  | .hbm, ⟨2, _⟩ => ⟨S128x64, .f32⟩
  | .hbm, ⟨3, _⟩ => ⟨S64, .f32⟩
  | .hbm, ⟨4, _⟩ => ⟨S128x128, .f32⟩
  | .hbm, ⟨5, _⟩ => ⟨S128, .f32⟩
  | .hbm, ⟨6, _⟩ => ⟨S128x32000, .f32⟩
  | .hbm, ⟨7, _⟩ => ⟨S32000, .f32⟩
  | .hbm, ⟨8, _⟩ => ⟨S1x64, .f32⟩
  | .hbm, ⟨9, _⟩ => ⟨S1x128, .f32⟩
  | .hbm, ⟨10, _⟩ => ⟨S1x32000, .f32⟩
  | .hbm, ⟨11, _⟩ => ⟨S8192x128, .bf16⟩
  | .hbm, ⟨12, _⟩ => ⟨S128x32000, .bf16⟩
  | .hbm, ⟨13, _⟩ => ⟨S8192x32000, .f32⟩
  | .local _ .vmem, ⟨0, _⟩ => ⟨S1024x128, .f32⟩
  | .local _ .vmem, ⟨1, _⟩ => ⟨S1024x128, .f32⟩
  | .local _ .vmem, ⟨2, _⟩ => ⟨S64x128, .f32⟩
  | .local _ .vmem, ⟨3, _⟩ => ⟨S128x64, .f32⟩
  | .local _ .vmem, ⟨4, _⟩ => ⟨S1x64, .f32⟩
  | .local _ .vmem, ⟨5, _⟩ => ⟨S128x128, .f32⟩
  | .local _ .vmem, ⟨6, _⟩ => ⟨S1x128, .f32⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S128x1280, .bf16⟩
  | .local _ .vmem, ⟨12, _⟩ => ⟨S128x1280, .bf16⟩
  | .local _ .vmem, ⟨13, _⟩ => ⟨S1x1280, .f32⟩
  | .local _ .vmem, ⟨14, _⟩ => ⟨S1x1280, .f32⟩
  | .local _ .vmem, ⟨15, _⟩ => ⟨S1024x1280, .f32⟩
  | .local _ .vmem, ⟨16, _⟩ => ⟨S1024x1280, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![25, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64_S1x64 : S64.ShapeCasts S1x64
  shapeCasts_S128_S1x128 : S128.ShapeCasts S1x128
  shapeCasts_S32000_S1x32000 : S32000.ShapeCasts S1x32000
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  broadcasts_S1024x1_S1024x128 : S1024x1.Broadcasts S1024x128
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  inb_S128x1280_S128x1280_0_0 : ∀ a, (![0, 0] : Fin 2 → Nat) a + S128x1280.size a ≤ S128x1280.size a
  h_S128x1280 : 0 < S128x1280.numel
  shapeCasts_S128x1280_S128x1280 : S128x1280.ShapeCasts S128x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  inb_S1024x1280_S1024x1280_0_0 : ∀ a, (![0, 0] : Fin 2 → Nat) a + S1024x1280.size a ≤ S1024x1280.size a
  h_S1024x1280 : 0 < S1024x1280.numel
  dot_S1024x128_S128x64_S1024x64_1_0_0_1_n_n_wf : DotDims.WF S1024x128 S128x64 S1024x64 [1] [0] [0] [1] [] []
  dot_S1024x64_S64x128_S1024x128_1_0_0_1_n_n_wf : DotDims.WF S1024x64 S64x128 S1024x128 [1] [0] [0] [1] [] []
  dot_S1024x128_S128x128_S1024x128_1_0_0_1_n_n_wf : DotDims.WF S1024x128 S128x128 S1024x128 [1] [0] [0] [1] [] []
  dot_S1024x128_S128x1280_S1024x1280_1_0_0_1_n_n_wf : DotDims.WF S1024x128 S128x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .bf16 = 32 ∨ (Rect.block (s := S8192x128) S1024x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1280.size a ≤ S128x32000.size a
  hwx1_1 : ∀ i : grid1.Coords, EltTy.bits .bf16 = 32 ∨ (Rect.block (s := S128x32000) S128x1280.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1280.size a ≤ S8192x32000.size a
  hwx1_3 : ∀ i : grid1.Coords, EltTy.bits .f32 = 32 ∨ (Rect.block (s := S8192x32000) S1024x1280.size (cc1_transform_3 i) (hinb1_3 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1280_S1024x1280_1_0_0_1_n_n : DotDims S1024x128 S128x1280 S1024x1280 where
  lhsContracting := [1]
  rhsContracting := [0]
  lhsNonContracting := [0]
  rhsNonContracting := [1]
  lhsBatch := []
  rhsBatch := []
  wf := dot_S1024x128_S128x1280_S1024x1280_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S128x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x128 : Shape := ⟨2, ![8192, 128]⟩
abbrev S64x128 : Shape := ⟨2, ![64, 128]⟩
abbrev S128x64 : Shape := ⟨2, ![128, 64]⟩
abbrev S64 : Shape := ⟨1, ![64]⟩
abbrev S128x128 : Shape := ⟨2, ![128, 128]⟩
abbrev S128 : Shape := ⟨1, ![128]⟩
abbrev S128x32000 : Shape := ⟨2, ![128, 32000]⟩
abbrev S32000 : Shape := ⟨1, ![32000]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x32000 : Shape := ⟨2, ![8192, 32000]⟩
abbrev S1x32000 : Shape := ⟨2, ![1, 32000]⟩

abbrev nBuf : Space → Nat
  | .hbm => 51
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S64x128, .f32⟩
  | .hbm, ⟨2, _⟩ => ⟨S128x64, .f32⟩
  | .hbm, ⟨3, _⟩ => ⟨S64, .f32⟩
  | .hbm, ⟨4, _⟩ => ⟨S128x128, .f32⟩
  | .hbm, ⟨5, _⟩ => ⟨S128, .f32⟩
  | .hbm, ⟨6, _⟩ => ⟨S128x32000, .f32⟩
  | .hbm, ⟨7, _⟩ => ⟨S32000, .f32⟩
  | .hbm, ⟨8, _⟩ => ⟨S8192x64, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x64, .f32⟩
  | .hbm, ⟨19, _⟩ => ⟨S8192x64, .f32⟩
  | .hbm, ⟨20, _⟩ => ⟨S8192x64, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x64, .f32⟩
  | .hbm, ⟨25, _⟩ => ⟨S8192x64, .f32⟩
  | .hbm, ⟨26, _⟩ => ⟨S8192x128, .f32⟩
  | .hbm, ⟨27, _⟩ => ⟨S8192x128, .f32⟩
  | .hbm, ⟨28, _⟩ => ⟨S1x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x128, .f32⟩
  | .hbm, ⟨46, _⟩ => ⟨S8192x128, .f32⟩
  | .hbm, ⟨47, _⟩ => ⟨S8192x32000, .f32⟩
  | .hbm, ⟨48, _⟩ => ⟨S1x32000, .f32⟩
  | .hbm, ⟨49, _⟩ => ⟨S8192x32000, .f32⟩
  | .hbm, ⟨50, _⟩ => ⟨S8192x32000, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S32000_S1x32000_1 : S32000.BroadcastsInDim S1x32000 (![1] : Fin 1 → Fin S1x32000.rank)
  bcast_S1x32000_S8192x32000_0_1 : S1x32000.BroadcastsInDim S8192x32000 (![0, 1] : Fin 2 → Fin S8192x32000.rank)
  dot_S8192x128_S128x64_S8192x64_1_0_0_1_n_n_wf : DotDims.WF S8192x128 S128x64 S8192x64 [1] [0] [0] [1] [] []
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S8192x128_S128x32000_S8192x32000_1_0_0_1_n_n_wf : DotDims.WF S8192x128 S128x32000 S8192x32000 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x32000_S8192x32000_1_0_0_1_n_n : DotDims S8192x128 S128x32000 S8192x32000 where
  lhsContracting := [1]
  rhsContracting := [0]
  lhsNonContracting := [0]
  rhsNonContracting := [1]
  lhsBatch := []
  rhsBatch := []
  wf := dot_S8192x128_S128x32000_S8192x32000_1_0_0_1_n_n_wf

class Facts : Prop extends Facts₀ where

variable [Facts]
-- ==== Proof.RowSpec.lean ====
/- The network of this certificate, one row at a time, on the extended reals.

   A row x of 128 entries is scored against 64 patterns (a matrix product and a bias), the scores are turned into
   weights by the softmax (each score less the row's maximum, exponentiated, divided by the sum of the exponentials),
   the weights rebuild a row of 128 entries from the pattern dictionary, a second matrix product and bias predict that
   row from itself, and the rebuilt row is scaled by the logistic function of the Euclidean length of the prediction's
   error. The last layer is one more matrix product and bias. Every sum is a finite sum over a coordinate, so neither
   the order of its terms nor the way a program cuts the rows into blocks is left in it. -/
import Idealize.ShloMosaic.PureOps.Ideal
import Idealize.ShloMosaic.Lib.ValueIdx

noncomputable section

open scoped BigOperators

namespace Cert.RowSpec

open Idealize.ShloMosaic Idealize.ShloMosaic.ValueIdx

/-- The value a row's maximum starts from: the f32 word of minus infinity, kept as the word both programs print. -/
abbrev start : EReal := Ideal.ofBits .f32 0xFF800000#32

/-- The score of the row against pattern p. -/
def score (aw : Fin 128 → Fin 64 → EReal) (ab : Fin 64 → EReal) (xr : Fin 128 → EReal) (p : Fin 64) : EReal :=
  (∑ k : Fin 128, xr k * aw k p) + ab p

/-- The largest score of the row. -/
def top (l : Fin 64 → EReal) : EReal :=
  max start ((Finset.univ : Finset (Fin 64)).fold max start l)

/-- The exponential of a score less the largest. -/
def expo (l : Fin 64 → EReal) (p : Fin 64) : EReal := Ideal.exp (l p - top l)

/-- The softmax weight of pattern p. -/
def weight (l : Fin 64 → EReal) (p : Fin 64) : EReal := Ideal.div (expo l p) (∑ q : Fin 64, expo l q)

/-- The row rebuilt from the dictionary with weights w. -/
def rebuild (pd : Fin 64 → Fin 128 → EReal) (w : Fin 64 → EReal) (j : Fin 128) : EReal := ∑ p : Fin 64, w p * pd p j

/-- The prediction of a row r from itself. -/
def predict (sw : Fin 128 → Fin 128 → EReal) (sb : Fin 128 → EReal) (r : Fin 128 → EReal) (j : Fin 128) : EReal :=
  (∑ k : Fin 128, r k * sw k j) + sb j

/-- The gate: the logistic function of the length of the prediction's error. -/
def gate (sw : Fin 128 → Fin 128 → EReal) (sb : Fin 128 → EReal) (r : Fin 128 → EReal) : EReal :=
  Ideal.logistic (Ideal.sqrt (∑ j : Fin 128, (predict sw sb r j - r j) * (predict sw sb r j - r j)))

/-- The rebuilt row of an input row. -/
def rebuilt (aw : Fin 128 → Fin 64 → EReal) (ab : Fin 64 → EReal) (pd : Fin 64 → Fin 128 → EReal)
    (xr : Fin 128 → EReal) : Fin 128 → EReal :=
  rebuild pd (weight (score aw ab xr))

/-- The gated row of an input row: the rebuilt row times its gate. -/
def gated (aw : Fin 128 → Fin 64 → EReal) (ab : Fin 64 → EReal) (pd : Fin 64 → Fin 128 → EReal)
    (sw : Fin 128 → Fin 128 → EReal) (sb : Fin 128 → EReal) (xr : Fin 128 → EReal) (j : Fin 128) : EReal :=
  rebuilt aw ab pd xr j * gate sw sb (rebuilt aw ab pd xr)

/-- One entry of the last layer: a gated row against one column of the output weights, plus that column's bias. -/
def project (g : Fin 128 → EReal) (ow : Fin 128 → EReal) (b : EReal) : EReal := (∑ k : Fin 128, g k * ow k) + b

/-! ## The whole arrays -/

/-- The gated rows as one array of 8192 rows: entry (r, j) is entry j of the gated row of row r of x. -/
def gatedArr (x : (⟨2, ![8192, 128]⟩ : Shape).Idx → EReal) (pd : (⟨2, ![64, 128]⟩ : Shape).Idx → EReal)
    (aw : (⟨2, ![128, 64]⟩ : Shape).Idx → EReal) (ab : (⟨1, ![64]⟩ : Shape).Idx → EReal)
    (sw : (⟨2, ![128, 128]⟩ : Shape).Idx → EReal) (sb : (⟨1, ![128]⟩ : Shape).Idx → EReal) :
    (⟨2, ![8192, 128]⟩ : Shape).Idx → EReal :=
  fun i => gated (fun k p => aw (ix2 k p)) (fun p => ab (ix1 p)) (fun p j => pd (ix2 p j)) (fun k j => sw (ix2 k j))
    (fun j => sb (ix1 j)) (fun k => x (ix2 (i 0 : Fin 8192) k)) (i 1 : Fin 128)

/-- The network's output from the eight argument arrays: entry (r, v) is row r of the gated rows against column v of
    the output weights, plus the output bias at v. -/
def network (x : (⟨2, ![8192, 128]⟩ : Shape).Idx → EReal) (pd : (⟨2, ![64, 128]⟩ : Shape).Idx → EReal)
    (aw : (⟨2, ![128, 64]⟩ : Shape).Idx → EReal) (ab : (⟨1, ![64]⟩ : Shape).Idx → EReal)
    (sw : (⟨2, ![128, 128]⟩ : Shape).Idx → EReal) (sb : (⟨1, ![128]⟩ : Shape).Idx → EReal)
    (ow : (⟨2, ![128, 32000]⟩ : Shape).Idx → EReal) (ob : (⟨1, ![32000]⟩ : Shape).Idx → EReal) :
    (⟨2, ![8192, 32000]⟩ : Shape).Idx → EReal :=
  fun i => project (fun k => gatedArr x pd aw ab sw sb (ix2 (i 0 : Fin 8192) k))
    (fun k => ow (ix2 k (i 1 : Fin 32000))) (ob (ix1 (i 1 : Fin 32000)))

/-- An entry of the gated rows by its coordinates. -/
theorem gatedArr_apply (x : (⟨2, ![8192, 128]⟩ : Shape).Idx → EReal) (pd : (⟨2, ![64, 128]⟩ : Shape).Idx → EReal)
    (aw : (⟨2, ![128, 64]⟩ : Shape).Idx → EReal) (ab : (⟨1, ![64]⟩ : Shape).Idx → EReal)
    (sw : (⟨2, ![128, 128]⟩ : Shape).Idx → EReal) (sb : (⟨1, ![128]⟩ : Shape).Idx → EReal) (r : Fin 8192) (j : Fin 128) :
    gatedArr x pd aw ab sw sb (ix2 r j)
      = gated (fun k p => aw (ix2 k p)) (fun p => ab (ix1 p)) (fun p j => pd (ix2 p j)) (fun k j => sw (ix2 k j))
          (fun j => sb (ix1 j)) (fun k => x (ix2 r k)) j := rfl

/-- An entry of the output by its coordinates. -/
theorem network_apply (x : (⟨2, ![8192, 128]⟩ : Shape).Idx → EReal) (pd : (⟨2, ![64, 128]⟩ : Shape).Idx → EReal)
    (aw : (⟨2, ![128, 64]⟩ : Shape).Idx → EReal) (ab : (⟨1, ![64]⟩ : Shape).Idx → EReal)
    (sw : (⟨2, ![128, 128]⟩ : Shape).Idx → EReal) (sb : (⟨1, ![128]⟩ : Shape).Idx → EReal)
    (ow : (⟨2, ![128, 32000]⟩ : Shape).Idx → EReal) (ob : (⟨1, ![32000]⟩ : Shape).Idx → EReal) (r : Fin 8192) (v : Fin 32000) :
    network x pd aw ab sw sb ow ob (ix2 r v)
      = project (fun k => gatedArr x pd aw ab sw sb (ix2 r k)) (fun k => ow (ix2 k v)) (ob (ix1 v)) := rfl

end Cert.RowSpec

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.RefRows.lean ====
/- The reference program read one row at a time.

   Each stage of the reference is a whole array; read at the coordinates (r, p) of a row r and a column p it is the
   corresponding quantity of the row-wise specification for row r of the input. The stages are taken in program
   order: the scores, their maximum, the exponentials and their sum, the softmax weights, the rebuilt row, the
   prediction's error and its Euclidean length, the gate, the gated row, and the last layer. -/
import proofs.«103157_j11338713661903_1_alg».proof.Proof.Gen.ReferenceIdeal.Read
import proofs.«103157_j11338713661903_1_alg».proof.Proof.RowSpec
import proofs.«103157_j11338713661903_1_alg».proof.Proof.LibKeepdims
import Idealize.ShloMosaic.Lib.IdealHost

noncomputable section

open scoped BigOperators

namespace Cert.RefRows

open Cert.ReferenceIdeal Cert.ReferenceIdeal.Read Idealize.ShloMosaic Idealize.ShloMosaic.ValueIdx Cert.RowSpec

/-! ## The index functions of the stages, at coordinates -/

theorem lidx_v0 (r : Fin 8192) (p : Fin 64) (k : Fin 128) : lidx_main_v0 (ix2 r p) k = ix2 r k :=
  funext fun a => Fin.ext (by match a with | ⟨0, _⟩ => rfl | ⟨1, _⟩ => rfl)

theorem ridx_v0 (r : Fin 8192) (p : Fin 64) (k : Fin 128) : ridx_main_v0 (ix2 r p) k = ix2 k p :=
  funext fun a => Fin.ext (by match a with | ⟨0, _⟩ => rfl | ⟨1, _⟩ => rfl)

theorem idx_v1_v2 (r : Fin 8192) (p : Fin 64) : idx_main_v1 (idx_main_v2 (ix2 r p)) = ix1 p :=
  funext fun a => Fin.ext (by match a with | ⟨0, _⟩ => rfl)

/-! ## The scores -/

/-- The biased product of the input rows with the attention weights, at (r, p), is the score of row r against
    pattern p. -/
theorem score_eq (x0 : (⟨S8192x128, .f32⟩ : BufTy).Contents (Elt Ideal)) (x2 : (⟨S128x64, .f32⟩ : BufTy).Contents (Elt Ideal))
    (x3 : (⟨S64, .f32⟩ : BufTy).Contents (Elt Ideal)) (r : Fin 8192) (p : Fin 64) :
    val_main_v3 (F := Ideal) x0 x2 x3 (ix2 r p)
      = score (fun k p => x2 (ix2 k p)) (fun p => x3 (ix1 p)) (fun k => x0 (ix2 r k)) p := by
  rw [val_main_v3_apply, val_main_v0_apply, val_main_v2_apply, val_main_v1_apply, idx_v1_v2]
  simp only [lidx_v0, ridx_v0]
  rfl

/-! ## The row maximum -/

theorem idx_v7_v8 (r : Fin 8192) (p : Fin 64) : idx_main_v7 (idx_main_v8 (ix2 r p)) = ix1 r :=
  funext fun a => Fin.ext (by match a with | ⟨0, _⟩ => rfl)

/-- The reference's maximum of a row's scores, started from the word of minus infinity and taken once more with
    that word, is the specification's largest score. -/
theorem top_eq (x0 : (⟨S8192x128, .f32⟩ : BufTy).Contents (Elt Ideal)) (x2 : (⟨S128x64, .f32⟩ : BufTy).Contents (Elt Ideal))
    (x3 : (⟨S64, .f32⟩ : BufTy).Contents (Elt Ideal)) (r : Fin 8192) :
    val_main_v6 (F := Ideal) x0 x2 x3 (ix1 r)
      = top (score (fun k p => x2 (ix2 k p)) (fun p => x3 (ix1 p)) (fun k => x0 (ix2 r k))) := by
  rw [val_main_v6_apply, val_main_v5_apply, val_main_cst_0_apply]
  unfold val_main_v4
  rw [Cert.Keepdims.host_max_last2_apply (φ := .f32) (val_main_v3 (F := Ideal) x0 x2 x3) (val_main_cst (F := Ideal))
    Gen.reducesTo_S8192x64_S8192_d1 (by decide) Gen.h_S_ r, val_main_cst_apply]
  simp only [score_eq]
  rfl

/-! ## The exponentials, their sum, and the softmax weights -/

/-- The exponential of a score less the row's maximum, at (r, p). -/
theorem expo_eq (x0 : (⟨S8192x128, .f32⟩ : BufTy).Contents (Elt Ideal)) (x2 : (⟨S128x64, .f32⟩ : BufTy).Contents (Elt Ideal))
    (x3 : (⟨S64, .f32⟩ : BufTy).Contents (Elt Ideal)) (r : Fin 8192) (p : Fin 64) :
    val_main_v10 (F := Ideal) x0 x2 x3 (ix2 r p)
      = expo (score (fun k p => x2 (ix2 k p)) (fun p => x3 (ix1 p)) (fun k => x0 (ix2 r k))) p := by
  rw [val_main_v10_apply, val_main_v9_apply, val_main_v8_apply, val_main_v7_apply, idx_v7_v8, top_eq, score_eq]
  rfl

theorem idx_v11 (r : Fin 8192) (k : Fin 64) : idx_main_v11 (ix1 r) k = ix2 r k :=
  funext fun a => Fin.ext (by match a with | ⟨0, _⟩ => rfl | ⟨1, _⟩ => rfl)

theorem idx_v12_v13 (r : Fin 8192) (p : Fin 64) : idx_main_v12 (idx_main_v13 (ix2 r p)) = ix1 r :=
  funext fun a => Fin.ext (by match a with | ⟨0, _⟩ => rfl)

/-- The host's sum of a row's exponentials, which starts from the word of zero, is their sum. -/
theorem expsum_eq (x0 : (⟨S8192x128, .f32⟩ : BufTy).Contents (Elt Ideal)) (x2 : (⟨S128x64, .f32⟩ : BufTy).Contents (Elt Ideal))
    (x3 : (⟨S64, .f32⟩ : BufTy).Contents (Elt Ideal)) (r : Fin 8192) :
    val_main_v11 (F := Ideal) x0 x2 x3 (ix1 r)
      = ∑ q : Fin 64, expo (score (fun k p => x2 (ix2 k p)) (fun p => x3 (ix1 p)) (fun k => x0 (ix2 r k))) q := by
  rw [val_main_v11_apply, val_main_cst_1_apply]
  simp only [idx_v11, expo_eq]
  rw [Ideal.ofBits_def, Ideal.ofBits_zero_f32, zero_add]

/-- The quotient of an exponential by the row's sum, at (r, p), is the softmax weight of pattern p. -/
theorem weight_eq (x0 : (⟨S8192x128, .f32⟩ : BufTy).Contents (Elt Ideal)) (x2 : (⟨S128x64, .f32⟩ : BufTy).Contents (Elt Ideal))
    (x3 : (⟨S64, .f32⟩ : BufTy).Contents (Elt Ideal)) (r : Fin 8192) (p : Fin 64) :
    val_main_v14 (F := Ideal) x0 x2 x3 (ix2 r p)
      = weight (score (fun k p => x2 (ix2 k p)) (fun p => x3 (ix1 p)) (fun k => x0 (ix2 r k))) p := by
  rw [val_main_v14_apply, val_main_v13_apply, val_main_v12_apply, idx_v12_v13, expsum_eq, expo_eq]
  rfl

/-! ## The rebuilt row -/

theorem lidx_v15 (r : Fin 8192) (j : Fin 128) (k : Fin 64) : lidx_main_v15 (ix2 r j) k = ix2 r k :=
  funext fun a => Fin.ext (by match a with | ⟨0, _⟩ => rfl | ⟨1, _⟩ => rfl)

theorem ridx_v15 (r : Fin 8192) (j : Fin 128) (k : Fin 64) : ridx_main_v15 (ix2 r j) k = ix2 k j :=
  funext fun a => Fin.ext (by match a with | ⟨0, _⟩ => rfl | ⟨1, _⟩ => rfl)

/-- The product of the softmax weights with the pattern dictionary, at (r, j), is entry j of the rebuilt row. -/
theorem rebuilt_eq (x0 : (⟨S8192x128, .f32⟩ : BufTy).Contents (Elt Ideal)) (x1 : (⟨S64x128, .f32⟩ : BufTy).Contents (Elt Ideal))
    (x2 : (⟨S128x64, .f32⟩ : BufTy).Contents (Elt Ideal)) (x3 : (⟨S64, .f32⟩ : BufTy).Contents (Elt Ideal))
    (r : Fin 8192) (j : Fin 128) :
    val_main_v15 (F := Ideal) x0 x1 x2 x3 (ix2 r j)
      = rebuilt (fun k p => x2 (ix2 k p)) (fun p => x3 (ix1 p)) (fun p j => x1 (ix2 p j)) (fun k => x0 (ix2 r k)) j := by
  rw [val_main_v15_apply]
  simp only [lidx_v15, ridx_v15, weight_eq]
  rfl

/-! ## The prediction's error and its length -/

theorem lidx_v16 (r : Fin 8192) (j : Fin 128) (k : Fin 128) : lidx_main_v16 (ix2 r j) k = ix2 r k :=
  funext fun a => Fin.ext (by match a with | ⟨0, _⟩ => rfl | ⟨1, _⟩ => rfl)

theorem ridx_v16 (r : Fin 8192) (j : Fin 128) (k : Fin 128) : ridx_main_v16 (ix2 r j) k = ix2 k j :=
  funext fun a => Fin.ext (by match a with | ⟨0, _⟩ => rfl | ⟨1, _⟩ => rfl)

theorem idx_v17_v18 (r : Fin 8192) (j : Fin 128) : idx_main_v17 (idx_main_v18 (ix2 r j)) = ix1 j :=
  funext fun a => Fin.ext (by match a with | ⟨0, _⟩ => rfl)

/-- The prediction of the rebuilt row less the rebuilt row, at (r, j). -/
theorem error_eq (x0 : (⟨S8192x128, .f32⟩ : BufTy).Contents (Elt Ideal)) (x1 : (⟨S64x128, .f32⟩ : BufTy).Contents (Elt Ideal))
    (x2 : (⟨S128x64, .f32⟩ : BufTy).Contents (Elt Ideal)) (x3 : (⟨S64, .f32⟩ : BufTy).Contents (Elt Ideal))
    (x4 : (⟨S128x128, .f32⟩ : BufTy).Contents (Elt Ideal)) (x5 : (⟨S128, .f32⟩ : BufTy).Contents (Elt Ideal))
    (r : Fin 8192) (j : Fin 128) :
    val_main_v20 (F := Ideal) x0 x1 x2 x3 x4 x5 (ix2 r j)
      = predict (fun k j => x4 (ix2 k j)) (fun j => x5 (ix1 j))
          (rebuilt (fun k p => x2 (ix2 k p)) (fun p => x3 (ix1 p)) (fun p j => x1 (ix2 p j)) (fun k => x0 (ix2 r k))) j
        - rebuilt (fun k p => x2 (ix2 k p)) (fun p => x3 (ix1 p)) (fun p j => x1 (ix2 p j)) (fun k => x0 (ix2 r k)) j := by
  rw [val_main_v20_apply, val_main_v19_apply, val_main_v16_apply, val_main_v18_apply, val_main_v17_apply, idx_v17_v18,
    rebuilt_eq]
  simp only [lidx_v16, ridx_v16, rebuilt_eq]
  rfl

theorem idx_call0_v1 (r : Fin 8192) (k : Fin 128) : idx_main_call0_v1 (ix1 r) k = ix2 r k :=
  funext fun a => Fin.ext (by match a with | ⟨0, _⟩ => rfl | ⟨1, _⟩ => rfl)

theorem idx_call0_v2 (r : Fin 8192) (u : Fin 1) : idx_main_call0_v2 (ix2 r u) = ix1 r :=
  funext fun a => Fin.ext (by match a with | ⟨0, _⟩ => rfl)

/-- The square root of the host's sum of the squared errors of a row, which starts from the word of zero, at (r, 0):
    the Euclidean length of the prediction's error. -/
theorem length_eq (x0 : (⟨S8192x128, .f32⟩ : BufTy).Contents (Elt Ideal)) (x1 : (⟨S64x128, .f32⟩ : BufTy).Contents (Elt Ideal))
    (x2 : (⟨S128x64, .f32⟩ : BufTy).Contents (Elt Ideal)) (x3 : (⟨S64, .f32⟩ : BufTy).Contents (Elt Ideal))
    (x4 : (⟨S128x128, .f32⟩ : BufTy).Contents (Elt Ideal)) (x5 : (⟨S128, .f32⟩ : BufTy).Contents (Elt Ideal))
    (r : Fin 8192) (u : Fin 1) :
    val_main_v21 (F := Ideal) x0 x1 x2 x3 x4 x5 (ix2 r u)
      = Ideal.sqrt (∑ j : Fin 128,
          (predict (fun k j => x4 (ix2 k j)) (fun j => x5 (ix1 j))
              (rebuilt (fun k p => x2 (ix2 k p)) (fun p => x3 (ix1 p)) (fun p j => x1 (ix2 p j)) (fun k => x0 (ix2 r k))) j
            - rebuilt (fun k p => x2 (ix2 k p)) (fun p => x3 (ix1 p)) (fun p j => x1 (ix2 p j)) (fun k => x0 (ix2 r k)) j)
          * (predict (fun k j => x4 (ix2 k j)) (fun j => x5 (ix1 j))
              (rebuilt (fun k p => x2 (ix2 k p)) (fun p => x3 (ix1 p)) (fun p j => x1 (ix2 p j)) (fun k => x0 (ix2 r k))) j
            - rebuilt (fun k p => x2 (ix2 k p)) (fun p => x3 (ix1 p)) (fun p j => x1 (ix2 p j)) (fun k => x0 (ix2 r k)) j)) := by
  rw [val_main_v21_apply, val_main_call0_v2_apply, idx_call0_v2, val_main_call0_v1_apply, val_main_call0_cst_apply]
  simp only [idx_call0_v1, val_main_call0_v0_apply, error_eq]
  rw [Ideal.ofBits_def, Ideal.ofBits_zero_f32, zero_add]
  rfl

/-! ## The gate and the gated row -/

theorem idx_v28 (r : Fin 8192) (j : Fin 128) : idx_main_v28 (ix2 r j) = ix2 r (0 : Fin 1) :=
  funext fun a => Fin.ext (by match a with | ⟨0, _⟩ => rfl | ⟨1, _⟩ => rfl)

/-- The reference spells the logistic function of the length s as 1 / (1 + exp (−s)), the two ones being the word of
    one; at (r, 0) that is the gate of the rebuilt row. -/
theorem gate_eq (x0 : (⟨S8192x128, .f32⟩ : BufTy).Contents (Elt Ideal)) (x1 : (⟨S64x128, .f32⟩ : BufTy).Contents (Elt Ideal))
    (x2 : (⟨S128x64, .f32⟩ : BufTy).Contents (Elt Ideal)) (x3 : (⟨S64, .f32⟩ : BufTy).Contents (Elt Ideal))
    (x4 : (⟨S128x128, .f32⟩ : BufTy).Contents (Elt Ideal)) (x5 : (⟨S128, .f32⟩ : BufTy).Contents (Elt Ideal))
    (r : Fin 8192) (u : Fin 1) :
    val_main_v27 (F := Ideal) x0 x1 x2 x3 x4 x5 (ix2 r u)
      = gate (fun k j => x4 (ix2 k j)) (fun j => x5 (ix1 j))
          (rebuilt (fun k p => x2 (ix2 k p)) (fun p => x3 (ix1 p)) (fun p j => x1 (ix2 p j)) (fun k => x0 (ix2 r k))) := by
  rw [val_main_v27_apply, val_main_v26_apply, val_main_cst_3_apply, val_main_v25_apply, val_main_v24_apply,
    val_main_cst_2_apply, val_main_v23_apply, val_main_v22_apply, length_eq, Ideal.ofBits_def, Ideal.ofBits_one_f32]
  rfl

/-- The rebuilt row times its gate, at (r, j), is entry (r, j) of the gated rows. -/
theorem gated_eq (x0 : (⟨S8192x128, .f32⟩ : BufTy).Contents (Elt Ideal)) (x1 : (⟨S64x128, .f32⟩ : BufTy).Contents (Elt Ideal))
    (x2 : (⟨S128x64, .f32⟩ : BufTy).Contents (Elt Ideal)) (x3 : (⟨S64, .f32⟩ : BufTy).Contents (Elt Ideal))
    (x4 : (⟨S128x128, .f32⟩ : BufTy).Contents (Elt Ideal)) (x5 : (⟨S128, .f32⟩ : BufTy).Contents (Elt Ideal))
    (r : Fin 8192) (j : Fin 128) :
    val_main_v29 (F := Ideal) x0 x1 x2 x3 x4 x5 (ix2 r j) = gatedArr x0 x1 x2 x3 x4 x5 (ix2 r j) := by
  rw [val_main_v29_apply, val_main_v28_apply, idx_v28, gate_eq, rebuilt_eq, gatedArr_apply]
  rfl

/-! ## The last layer -/

theorem lidx_v30 (r : Fin 8192) (v : Fin 32000) (k : Fin 128) : lidx_main_v30 (ix2 r v) k = ix2 r k :=
  funext fun a => Fin.ext (by match a with | ⟨0, _⟩ => rfl | ⟨1, _⟩ => rfl)

theorem ridx_v30 (r : Fin 8192) (v : Fin 32000) (k : Fin 128) : ridx_main_v30 (ix2 r v) k = ix2 k v :=
  funext fun a => Fin.ext (by match a with | ⟨0, _⟩ => rfl | ⟨1, _⟩ => rfl)

theorem idx_v31_v32 (r : Fin 8192) (v : Fin 32000) : idx_main_v31 (idx_main_v32 (ix2 r v)) = ix1 v :=
  funext fun a => Fin.ext (by match a with | ⟨0, _⟩ => rfl)

/-- The reference's last stage is the specification's network of its eight arguments. -/
theorem result_eq (x0 : (⟨S8192x128, .f32⟩ : BufTy).Contents (Elt Ideal)) (x1 : (⟨S64x128, .f32⟩ : BufTy).Contents (Elt Ideal)) (x2 : (⟨S128x64, .f32⟩ : BufTy).Contents (Elt Ideal)) (x3 : (⟨S64, .f32⟩ : BufTy).Contents (Elt Ideal)) (x4 : (⟨S128x128, .f32⟩ : BufTy).Contents (Elt Ideal)) (x5 : (⟨S128, .f32⟩ : BufTy).Contents (Elt Ideal)) (x6 : (⟨S128x32000, .f32⟩ : BufTy).Contents (Elt Ideal)) (x7 : (⟨S32000, .f32⟩ : BufTy).Contents (Elt Ideal)) :
    val_main_v33 (F := Ideal) x0 x1 x2 x3 x4 x5 x6 x7 = network x0 x1 x2 x3 x4 x5 x6 x7 := by
  funext i
  obtain ⟨r, v, rfl⟩ : ∃ (r : Fin 8192) (v : Fin 32000), i = ix2 r v := ⟨i 0, i 1, eq_ix2 i⟩
  rw [val_main_v33_apply, val_main_v30_apply, val_main_v32_apply, val_main_v31_apply, idx_v31_v32, network_apply]
  simp only [lidx_v30, ridx_v30, gated_eq]
  rfl

end Cert.RefRows

end
-- ==== Proof.Entry.lean ====
/- What the two kernel regions find in the buffers they read.

   Before the first region the host reshapes the three biases from [n] to [1, n]; between the regions it converts
   the output weights to bf16, which on the extended reals changes nothing. No host operation writes an argument, so
   each argument array is found as launched; the second region finds, in the first region's result buffer, what the
   first region's write-backs left there. -/
import proofs.«103157_j11338713661903_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.ShloMosaic.ValueIdx Idealize.SL.Sem Idealize.ShloMosaic.StableHlo

/-- A vector [b] viewed as one row [1, b] reads, at (0, p), the vector at p. -/
theorem shapeCast_b_1b_apply {α : Type} {b : ℕ} (x : (⟨1, ![b]⟩ : Shape).Idx → α)
    (h : (⟨1, ![b]⟩ : Shape).ShapeCasts ⟨2, ![1, b]⟩) (u : Fin 1) (p : Fin b) :
    shapeCast ⟨2, ![1, b]⟩ x h (ix2 u p) = x (ix1 p) :=
  shapeCast_apply x h _ _ (by
    have hu : u.val = 0 := by omega
    rw [Shape.rowMajor_val_two, Shape.rowMajor_val_one]
    show p.val = u.val * b + p.val
    rw [hu, Nat.zero_mul, Nat.zero_add])

variable (m : (ℓ : Loc nD τ sig) → Buf (Elt Ideal) ℓ) (ρ : Dev nD → PrngReg)

/-! ## At the first region's entry -/

theorem V1_arg0 (c : Dev nD) : V1 m ρ c main_arg0 = m ((c : Thread nD τ).loc main_arg0) := by
  show StableHlo.after hostOps0 (W0 m ρ c) (Proc.devRef .tc main_arg0) = _
  simp only [hostOps0]
  after_results

theorem V1_arg1 (c : Dev nD) : V1 m ρ c main_arg1 = m ((c : Thread nD τ).loc main_arg1) := by
  show StableHlo.after hostOps0 (W0 m ρ c) (Proc.devRef .tc main_arg1) = _
  simp only [hostOps0]
  after_results

theorem V1_arg2 (c : Dev nD) : V1 m ρ c main_arg2 = m ((c : Thread nD τ).loc main_arg2) := by
  show StableHlo.after hostOps0 (W0 m ρ c) (Proc.devRef .tc main_arg2) = _
  simp only [hostOps0]
  after_results

theorem V1_arg4 (c : Dev nD) : V1 m ρ c main_arg4 = m ((c : Thread nD τ).loc main_arg4) := by
  show StableHlo.after hostOps0 (W0 m ρ c) (Proc.devRef .tc main_arg4) = _
  simp only [hostOps0]
  after_results

theorem W1_arg6 (c : Dev nD) : W1 m ρ c (Proc.devRef .tc main_arg6) = m ((c : Thread nD τ).loc main_arg6) := by
  show StableHlo.after hostOps0 (W0 m ρ c) (Proc.devRef .tc main_arg6) = _
  simp only [hostOps0]
  after_results

/-- The attention bias as the first region finds it: the argument viewed as one row. -/
theorem V1_v0_eq (c : Dev nD) :
    V1 m ρ c main_v0 = shapeCast S1x64 (m ((c : Thread nD τ).loc main_arg3)) shapeCasts_S64_S1x64 := by
  show StableHlo.after hostOps0 (W0 m ρ c) (Proc.devRef .tc main_v0) = _
  simp only [hostOps0]
  after_results
  rfl

theorem V1_v0 (c : Dev nD) (p : Fin 64) :
    V1 m ρ c main_v0 (ix2 (0 : Fin 1) p) = m ((c : Thread nD τ).loc main_arg3) (ix1 p) := by
  rw [V1_v0_eq]
  exact shapeCast_b_1b_apply _ _ 0 p

/-- The self-prediction bias likewise. -/
theorem V1_v1_eq (c : Dev nD) :
    V1 m ρ c main_v1 = shapeCast S1x128 (m ((c : Thread nD τ).loc main_arg5)) shapeCasts_S128_S1x128 := by
  show StableHlo.after hostOps0 (W0 m ρ c) (Proc.devRef .tc main_v1) = _
  simp only [hostOps0]
  after_results
  rfl

theorem V1_v1 (c : Dev nD) (j : Fin 128) :
    V1 m ρ c main_v1 (ix2 (0 : Fin 1) j) = m ((c : Thread nD τ).loc main_arg5) (ix1 j) := by
  rw [V1_v1_eq]
  exact shapeCast_b_1b_apply _ _ 0 j

/-- The output bias, reshaped before the first region and read by the second. -/
theorem W1_v2_eq (c : Dev nD) :
    W1 m ρ c (Proc.devRef .tc main_v2) = shapeCast S1x32000 (m ((c : Thread nD τ).loc main_arg7)) shapeCasts_S32000_S1x32000 := by
  show StableHlo.after hostOps0 (W0 m ρ c) (Proc.devRef .tc main_v2) = _
  simp only [hostOps0]
  after_results
  rfl

/-! ## At the second region's entry -/

/-- The gated rows: what the first region's write-backs left in its result buffer. -/
theorem V3_v3 (c : Dev nD) : V3 m ρ c main_v3 = (dat0 (V1 m ρ) c).arrAt 6 cfg0.N := by
  show StableHlo.after hostOps1 (W2 m ρ c) (Proc.devRef .tc main_v3) = _
  simp only [hostOps1]
  after_results
  exact W2_arr m ρ c 6

/-- The output weights: the host's conversion to bf16 is the identity on the extended reals. -/
theorem V3_v4 (c : Dev nD) : V3 m ρ c main_v4 = m ((c : Thread nD τ).loc main_arg6) := by
  show StableHlo.after hostOps1 (W2 m ρ c) (Proc.devRef .tc main_v4) = _
  simp only [hostOps1]
  after_results
  rw [W2_of_ne m ρ c main_arg6 (by decide), W1_arg6]
  rfl

theorem V3_v2 (c : Dev nD) (v : Fin 32000) :
    V3 m ρ c main_v2 (ix2 (0 : Fin 1) v) = m ((c : Thread nD τ).loc main_arg7) (ix1 v) := by
  have e : V3 m ρ c main_v2 = shapeCast S1x32000 (m ((c : Thread nD τ).loc main_arg7)) shapeCasts_S32000_S1x32000 := by
    show StableHlo.after hostOps1 (W2 m ρ c) (Proc.devRef .tc main_v2) = _
    simp only [hostOps1]
    after_results
    rw [W2_of_ne m ρ c main_v2 (by decide)]
    exact W1_v2_eq m ρ c
  rw [e]
  exact shapeCast_b_1b_apply _ _ 0 v

end Cert.KernelIdeal.Entry

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.KernelRows.lean ====
/- The two kernels' stored blocks read one entry at a time.

   The first kernel turns a block of 1024 rows into their gated rows; the second multiplies a block of gated rows by a
   block of 1280 columns of the output weights and adds the bias. Each block value is one pure term of the vectors the
   kernel loads. Read at row q and a column, the first is entry j of the gated row of row q of the block (scores,
   softmax weights, the rebuilt row, its prediction, the gate), the second is that row against that column plus the
   column's bias. A change of float format is the identity on the extended reals, a view of a shape as itself changes
   nothing, a broadcast reads its operand on the unit axis, and a reduction over the last axis is the sum or the
   maximum over that coordinate. -/
import proofs.«103157_j11338713661903_1_alg».proof.Proof.Gen.KernelIdeal.Skeleton
import proofs.«103157_j11338713661903_1_alg».proof.Proof.RowSpec
import proofs.«103157_j11338713661903_1_alg».proof.Proof.LibKeepdims
import proofs.«103157_j11338713661903_1_alg».proof.Proof.LibDotPlain

noncomputable section

open scoped BigOperators

namespace Cert.KernelRows

open Cert.KernelIdeal Cert.KernelIdeal.Gen Idealize.ShloMosaic Idealize.ShloMosaic.ValueIdx Cert.RowSpec

/-! ## Layout: a row broadcast down the rows -/

/-- A row [1, b] broadcast along its unit axis reads, at (r, k), the row at (0, k). -/
theorem broadcastTo_1b_ab_apply {α : Type} {a b : ℕ} (x : (⟨2, ![1, b]⟩ : Shape).Idx → α)
    (h : (⟨2, ![1, b]⟩ : Shape).Broadcasts ⟨2, ![a, b]⟩) (r : Fin a) (k : Fin b) :
    broadcastTo ⟨2, ![a, b]⟩ x h (ix2 r k) = x (ix2 (0 : Fin 1) k) :=
  broadcastTo_apply x h _ _ (fun ax => match ax with
    | ⟨0, _⟩ => by
      show 0 = if (1 : ℕ) = 1 then 0 else r.val
      rw [if_pos rfl]
    | ⟨1, _⟩ => by
      have := k.isLt
      show k.val = if b = 1 then 0 else k.val
      split <;> omega)

/-! ## The second kernel -/

/-- The second kernel's block at (q, v): gated row q against column v of the weights, plus the bias at v. -/
theorem project_block_apply (g : Vec Ideal S1024x128 .bf16) (w : Vec Ideal S128x1280 .bf16) (b : Vec Ideal S1x1280 .f32)
    (q : Fin 1024) (v : Fin 1280) :
    k1_pay1 (F := Ideal) g w b (ix2 q v)
      = project (fun k => g (ix2 q k)) (fun k => w (ix2 k v)) (b (ix2 (0 : Fin 1) v)) := by
  unfold k1_pay1 project
  rw [shapeCast_self, shapeCast_self, shapeCast_self]
  refine congrArg₂ (· + ·) ?_ ?_
  · exact Cert.DotPlain.matmul_zero_rows_cols _ rfl rfl rfl rfl rfl rfl none g w q v
  · exact broadcastTo_1b_ab_apply b _ q v

/-! ## Layout: a column spread along the rows' entries -/

/-- A column [a] viewed as [a, 1] and broadcast to [a, b] reads, at (r, k), the column at r. -/
theorem col_apply {α : Type} {a b : ℕ} (m : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ m hc) hb (ix2 r k) = m (ix1 r) :=
  (Cert.Keepdims.broadcastTo_a1_ab_apply _ hb r k).trans (Cert.Keepdims.shapeCast_a_a1_apply m hc r 0)

/-! ## The first kernel's stages as vectors

Each stage is a function of the vectors before it, so that the block the kernel stores is their composition and each
can be read at an index by itself. -/

/-- The block of scores: the rows against the pattern weights, plus the bias row. -/
def scoreV (x0 : FVec Ideal S1024x128 .f32) (x2 : FVec Ideal S128x64 .f32) (x3 : FVec Ideal S1x64 .f32) :
    FVec Ideal S1024x64 .f32 :=
  addf (matmul (F := Ideal) dot_S1024x128_S128x64_S1024x64_1_0_0_1_n_n none (truncf .bf16 x0 bitsLt_bf16_f32)
      (truncf .bf16 x2 bitsLt_bf16_f32) (constant (F := Ideal) S1024x64 .f32 0x00000000#32))
    (broadcastTo S1024x64 (shapeCast S1x64 x3 shapeCasts_S1x64_S1x64) broadcasts_S1x64_S1024x64)

/-- The row maxima of a block of scores. -/
def topV (l : FVec Ideal S1024x64 .f32) : FVec Ideal S1024 .f32 :=
  maximumf (broadcast S1024 (Scalar.ofBits (F := Ideal) .f32 0xFF800000#32))
    (multiReduction (F := Ideal) .maximumf [1] S1024 l 0xFF800000#32 reduces_S1024x64_S1024 (.inl rfl) rfl)

/-- The exponentials of a block of scores, each less its row's maximum. -/
def expoV (l : FVec Ideal S1024x64 .f32) : FVec Ideal S1024x64 .f32 :=
  exp (subf l (broadcastTo S1024x64 (shapeCast S1024x1 (topV l) shapeCasts_S1024_S1024x1) broadcasts_S1024x1_S1024x64))

/-- A block of exponentials, each divided by its row's sum. -/
def weightV (e : FVec Ideal S1024x64 .f32) : FVec Ideal S1024x64 .f32 :=
  divf e (broadcastTo S1024x64 (shapeCast S1024x1
    (multiReduction (F := Ideal) .add [1] S1024 e 0x00000000#32 reduces_S1024x64_S1024 (.inl rfl) rfl)
    shapeCasts_S1024_S1024x1) broadcasts_S1024x1_S1024x64)

/-- The rows rebuilt from the dictionary with a block of weights. -/
def rebuildV (w : FVec Ideal S1024x64 .f32) (x1 : FVec Ideal S64x128 .f32) : FVec Ideal S1024x128 .f32 :=
  matmul (F := Ideal) dot_S1024x64_S64x128_S1024x128_1_0_0_1_n_n none (truncf .bf16 w bitsLt_bf16_f32)
    (truncf .bf16 x1 bitsLt_bf16_f32) (constant (F := Ideal) S1024x128 .f32 0x00000000#32)

/-- The prediction of a block of rows from itself. -/
def predictV (r : FVec Ideal S1024x128 .f32) (x4 : FVec Ideal S128x128 .f32) (x5 : FVec Ideal S1x128 .f32) :
    FVec Ideal S1024x128 .f32 :=
  addf (matmul (F := Ideal) dot_S1024x128_S128x128_S1024x128_1_0_0_1_n_n none (truncf .bf16 r bitsLt_bf16_f32)
      (truncf .bf16 x4 bitsLt_bf16_f32) (constant (F := Ideal) S1024x128 .f32 0x00000000#32))
    (broadcastTo S1024x128 (shapeCast S1x128 x5 shapeCasts_S1x128_S1x128) broadcasts_S1x128_S1024x128)

/-- The gates of a block of prediction errors, spread along each row. -/
def gateV (d : FVec Ideal S1024x128 .f32) : FVec Ideal S1024x128 .f32 :=
  broadcastTo S1024x128 (logistic (sqrt (shapeCast S1024x1
    (multiReduction (F := Ideal) .add [1] S1024 (mulf d d) 0x00000000#32 reduces_S1024x128_S1024 (.inl rfl) rfl)
    shapeCasts_S1024_S1024x1))) broadcasts_S1024x1_S1024x128

/-- The stored block is the composition of the stages: the rebuilt rows times their gates. -/
theorem pay_eq_stages (x0 : Vec Ideal S1024x128 .f32) (x1 : Vec Ideal S64x128 .f32) (x2 : Vec Ideal S128x64 .f32)
    (x3 : Vec Ideal S1x64 .f32) (x4 : Vec Ideal S128x128 .f32) (x5 : Vec Ideal S1x128 .f32) :
    k0_pay1 (F := Ideal) (k0_pay2 (F := Ideal) x0 x2 x3 x1 x4 x5)
      = mulf (rebuildV (weightV (expoV (scoreV x0 x2 x3))) x1)
          (gateV (subf (predictV (rebuildV (weightV (expoV (scoreV x0 x2 x3))) x1) x4 x5)
            (rebuildV (weightV (expoV (scoreV x0 x2 x3))) x1))) := rfl

/-! ## Each stage read at an index -/

/-- A score: row q against pattern p's weights, plus the bias at p. -/
theorem scoreV_apply (x0 : FVec Ideal S1024x128 .f32) (x2 : FVec Ideal S128x64 .f32) (x3 : FVec Ideal S1x64 .f32)
    (q : Fin 1024) (p : Fin 64) :
    scoreV x0 x2 x3 (ix2 q p)
      = score (fun k p => x2 (ix2 k p)) (fun p => x3 (ix2 (0 : Fin 1) p)) (fun k => x0 (ix2 q k)) p := by
  unfold scoreV score
  refine congrArg₂ (· + ·) ?_ ?_
  · exact Cert.DotPlain.matmul_zero_rows_cols _ rfl rfl rfl rfl rfl rfl none
      (truncf .bf16 x0 bitsLt_bf16_f32) (truncf .bf16 x2 bitsLt_bf16_f32) q p
  · rw [shapeCast_self]
    exact broadcastTo_1b_ab_apply x3 _ q p

/-- A row's maximum: the larger of the starting value and the fold of max over the row's scores. -/
theorem topV_apply (l : FVec Ideal S1024x64 .f32) (q : Fin 1024) : topV l (ix1 q) = top (fun p => l (ix2 q p)) := by
  unfold topV top
  exact congrArg (max start) (Cert.Keepdims.max_last2_apply l _ reduces_S1024x64_S1024 (.inl rfl) rfl q)

/-- An exponential: the score less its row's maximum, exponentiated. -/
theorem expoV_apply (l : FVec Ideal S1024x64 .f32) (q : Fin 1024) (p : Fin 64) :
    expoV l (ix2 q p) = expo (fun p => l (ix2 q p)) p := by
  unfold expoV expo
  exact congrArg (fun t => Ideal.exp (l (ix2 q p) - t))
    ((col_apply (topV l) shapeCasts_S1024_S1024x1 broadcasts_S1024x1_S1024x64 q p).trans (topV_apply l q))

/-- A weight: the exponential over its row's sum. -/
theorem weightV_apply (e : FVec Ideal S1024x64 .f32) (q : Fin 1024) (p : Fin 64) :
    weightV e (ix2 q p) = Ideal.div (e (ix2 q p)) (∑ k : Fin 64, e (ix2 q k)) := by
  unfold weightV
  exact congrArg (Ideal.div (e (ix2 q p)))
    ((col_apply _ shapeCasts_S1024_S1024x1 broadcasts_S1024x1_S1024x64 q p).trans
      (Cert.Keepdims.sum_last2_apply e _ reduces_S1024x64_S1024 (.inl rfl) rfl q))

/-- A rebuilt entry: row q of the weights against column j of the dictionary. -/
theorem rebuildV_apply (w : FVec Ideal S1024x64 .f32) (x1 : FVec Ideal S64x128 .f32) (q : Fin 1024) (j : Fin 128) :
    rebuildV w x1 (ix2 q j) = ∑ p : Fin 64, w (ix2 q p) * x1 (ix2 p j) := by
  unfold rebuildV
  exact Cert.DotPlain.matmul_zero_rows_cols _ rfl rfl rfl rfl rfl rfl none
    (truncf .bf16 w bitsLt_bf16_f32) (truncf .bf16 x1 bitsLt_bf16_f32) q j

/-- A predicted entry: row q against column j of the prediction weights, plus the bias at j. -/
theorem predictV_apply (r : FVec Ideal S1024x128 .f32) (x4 : FVec Ideal S128x128 .f32) (x5 : FVec Ideal S1x128 .f32)
    (q : Fin 1024) (j : Fin 128) :
    predictV r x4 x5 (ix2 q j) = (∑ k : Fin 128, r (ix2 q k) * x4 (ix2 k j)) + x5 (ix2 (0 : Fin 1) j) := by
  unfold predictV
  refine congrArg₂ (· + ·) ?_ ?_
  · exact Cert.DotPlain.matmul_zero_rows_cols _ rfl rfl rfl rfl rfl rfl none
      (truncf .bf16 r bitsLt_bf16_f32) (truncf .bf16 x4 bitsLt_bf16_f32) q j
  · rw [shapeCast_self]
    exact broadcastTo_1b_ab_apply x5 _ q j

/-- A gate: the logistic function of the root of the row's sum of squared errors, the same along the row. -/
theorem gateV_apply (d : FVec Ideal S1024x128 .f32) (q : Fin 1024) (j : Fin 128) :
    gateV d (ix2 q j) = Ideal.logistic (Ideal.sqrt (∑ j' : Fin 128, d (ix2 q j') * d (ix2 q j'))) := by
  unfold gateV
  refine (Cert.Keepdims.broadcastTo_a1_ab_apply _ broadcasts_S1024x1_S1024x128 q j).trans ?_
  exact congrArg (fun t => Ideal.logistic (Ideal.sqrt t))
    ((Cert.Keepdims.shapeCast_a_a1_apply _ shapeCasts_S1024_S1024x1 q 0).trans
      (Cert.Keepdims.sum_last2_apply (mulf d d) _ reduces_S1024x128_S1024 (.inl rfl) rfl q))

/-! ## The first kernel -/

/-- The first kernel's block at (q, j): entry j of the gated row of row q of the block. Along row q the scores, the
    exponentials, the weights, the rebuilt entries and the predictions are, as functions of their coordinate, the
    row specification's; the stored entry is the rebuilt entry times the row's gate. -/
theorem gated_block_apply (x0 : Vec Ideal S1024x128 .f32) (x1 : Vec Ideal S64x128 .f32) (x2 : Vec Ideal S128x64 .f32)
    (x3 : Vec Ideal S1x64 .f32) (x4 : Vec Ideal S128x128 .f32) (x5 : Vec Ideal S1x128 .f32) (q : Fin 1024) (j : Fin 128) :
    k0_pay1 (F := Ideal) (k0_pay2 (F := Ideal) x0 x2 x3 x1 x4 x5) (ix2 q j)
      = gated (fun k p => x2 (ix2 k p)) (fun p => x3 (ix2 (0 : Fin 1) p)) (fun p j' => x1 (ix2 p j'))
          (fun k j' => x4 (ix2 k j')) (fun j' => x5 (ix2 (0 : Fin 1) j')) (fun k => x0 (ix2 q k)) j := by
  -- the row's scores
  have hL : (fun p => scoreV x0 x2 x3 (ix2 q p))
      = score (fun k p => x2 (ix2 k p)) (fun p => x3 (ix2 (0 : Fin 1) p)) (fun k => x0 (ix2 q k)) :=
    funext fun p => scoreV_apply x0 x2 x3 q p
  -- its exponentials
  have hE : (fun p => expoV (scoreV x0 x2 x3) (ix2 q p))
      = expo (score (fun k p => x2 (ix2 k p)) (fun p => x3 (ix2 (0 : Fin 1) p)) (fun k => x0 (ix2 q k))) :=
    (funext fun p => expoV_apply (scoreV x0 x2 x3) q p).trans (congrArg expo hL)
  -- its softmax weights
  have hW : (fun p => weightV (expoV (scoreV x0 x2 x3)) (ix2 q p))
      = weight (score (fun k p => x2 (ix2 k p)) (fun p => x3 (ix2 (0 : Fin 1) p)) (fun k => x0 (ix2 q k))) :=
    (funext fun p => weightV_apply (expoV (scoreV x0 x2 x3)) q p).trans
      (congrArg (fun ε : Fin 64 → EReal => fun p => Ideal.div (ε p) (∑ k : Fin 64, ε k)) hE)
  -- the rebuilt row
  have hR : (fun j' => rebuildV (weightV (expoV (scoreV x0 x2 x3))) x1 (ix2 q j'))
      = rebuilt (fun k p => x2 (ix2 k p)) (fun p => x3 (ix2 (0 : Fin 1) p)) (fun p j' => x1 (ix2 p j'))
          (fun k => x0 (ix2 q k)) :=
    (funext fun j' => rebuildV_apply (weightV (expoV (scoreV x0 x2 x3))) x1 q j').trans
      (congrArg (rebuild (fun p j' => x1 (ix2 p j'))) hW)
  -- its prediction from itself
  have hP : (fun j' => predictV (rebuildV (weightV (expoV (scoreV x0 x2 x3))) x1) x4 x5 (ix2 q j'))
      = predict (fun k j' => x4 (ix2 k j')) (fun j' => x5 (ix2 (0 : Fin 1) j'))
          (rebuilt (fun k p => x2 (ix2 k p)) (fun p => x3 (ix2 (0 : Fin 1) p)) (fun p j' => x1 (ix2 p j'))
            (fun k => x0 (ix2 q k))) :=
    (funext fun j' => predictV_apply (rebuildV (weightV (expoV (scoreV x0 x2 x3))) x1) x4 x5 q j').trans
      (congrArg (predict (fun k j' => x4 (ix2 k j')) (fun j' => x5 (ix2 (0 : Fin 1) j'))) hR)
  -- the stored entry: the rebuilt entry times the gate of the row's prediction error
  refine (congrFun (pay_eq_stages x0 x1 x2 x3 x4 x5) (ix2 q j)).trans ?_
  unfold gated gate
  refine congrArg₂ (· * ·) (congrFun hR j) ?_
  refine (gateV_apply _ q j).trans ?_
  exact congrArg₂ (fun (pr rr : Fin 128 → EReal) =>
    Ideal.logistic (Ideal.sqrt (∑ j' : Fin 128, (pr j' - rr j') * (pr j' - rr j')))) hP hR

end Cert.KernelRows

end
-- ==== Proof.Blocks0.lean ====
/- The first region's result buffer after the run: the gated rows of the whole input.

   The region walks 8 blocks of 1024 rows. At block t the kernel reads rows 1024·t … 1024·t + 1023 of the input and
   the whole of every weight array, and writes back the same rows of its result; what it writes at local row q is
   the gated row of input row 1024·t + q. The 8 blocks tile the 8192 rows, so the buffer ends holding the gated row
   of every input row. All of it is stated at ANY contents V of the buffers at the region's entry, given as
   hypotheses what V holds at the seven arrays the region reads. -/
import proofs.«103157_j11338713661903_1_alg».proof.Proof.Gen.KernelIdeal.Frame
import proofs.«103157_j11338713661903_1_alg».proof.Proof.RowSpec
import proofs.«103157_j11338713661903_1_alg».proof.Proof.KernelRows
import Idealize.ShloMosaic.Lib.Pipeline.Value
import Idealize.ShloMosaic.Lib.ValueIdx

set_option maxRecDepth 16384
noncomputable section
namespace Cert.KernelIdeal.Blocks0
open Cert.KernelIdeal Cert.KernelIdeal.Gen Cert.RowSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-buffer access. -/
theorem hz : (![0, 0] : Fin 2 → Nat) = fun _ => 0 := funext fun a => by fin_cases a <;> rfl

/-- The index maps over the grid: the input rows and the result move with the point along the rows, every weight
    array is read whole at every point. -/
theorem idx_facts : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The grid has 8 points. -/
theorem point_lt (t : Fin cfg0.N) : t.val < 8 := lt_of_lt_of_eq t.isLt N_0

/-- The row of the array that row q of block t is. -/
def row (t : Fin cfg0.N) (q : Fin 1024) : Fin 8192 := ⟨t.val * 1024 + q.val, by have := point_lt t; have := q.isLt; omega⟩

/-- Row q of the input block at point t is row 1024·t + q of the input. -/
theorem read0 (c : Dev nD) (t : Fin cfg0.N) (q : Fin 1024) (k : Fin 128) :
    iblk0 V c 0 t (ix2 q k) = V c main_arg0 (ix2 (row t q) k) := by
  obtain ⟨e0, e1, -⟩ := idx_facts t
  show V c main_arg0 (((cfg0.win 0).blk t).view.emb (ix2 q k)) = _
  refine congrArg (V c main_arg0) (funext fun a => Fin.ext ?_)
  match a with
  | ⟨0, _⟩ => show win0_0.index t (0 : Fin 2) * 1024 + 1 * q.val = t.val * 1024 + q.val; omega
  | ⟨1, _⟩ => show win0_0.index t (1 : Fin 2) * 128 + 1 * k.val = k.val; omega

/-- The weight blocks are the weight arrays. -/
theorem read1 (c : Dev nD) (t : Fin cfg0.N) (p : Fin 64) (j : Fin 128) :
    iblk0 V c 1 t (ix2 p j) = V c main_arg1 (ix2 p j) := by
  obtain ⟨-, -, -, -, e0, e1, -⟩ := idx_facts t
  show V c main_arg1 (((cfg0.win 1).blk t).view.emb (ix2 p j)) = _
  refine congrArg (V c main_arg1) (funext fun a => Fin.ext ?_)
  match a with
  | ⟨0, _⟩ => show win0_1.index t (0 : Fin 2) * 64 + 1 * p.val = p.val; omega
  | ⟨1, _⟩ => show win0_1.index t (1 : Fin 2) * 128 + 1 * j.val = j.val; omega

theorem read2 (c : Dev nD) (t : Fin cfg0.N) (k : Fin 128) (p : Fin 64) :
    iblk0 V c 2 t (ix2 k p) = V c main_arg2 (ix2 k p) := by
  obtain ⟨-, -, -, -, -, -, e0, e1, -⟩ := idx_facts t
  show V c main_arg2 (((cfg0.win 2).blk t).view.emb (ix2 k p)) = _
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 64 + 1 * p.val = p.val; omega

theorem read3 (c : Dev nD) (t : Fin cfg0.N) (p : Fin 64) :
    iblk0 V c 3 t (ix2 (0 : Fin 1) p) = V c main_v0 (ix2 (0 : Fin 1) p) := by
  obtain ⟨-, -, -, -, -, -, -, -, e0, e1, -⟩ := idx_facts t
  show V c main_v0 (((cfg0.win 3).blk t).view.emb (ix2 (0 : Fin 1) p)) = _
  refine congrArg (V c main_v0) (funext fun a => Fin.ext ?_)
  match a with
  | ⟨0, _⟩ => show win0_3.index t (0 : Fin 2) * 1 + 1 * 0 = 0; omega
  | ⟨1, _⟩ => show win0_3.index t (1 : Fin 2) * 64 + 1 * p.val = p.val; omega

theorem read4 (c : Dev nD) (t : Fin cfg0.N) (k : Fin 128) (j : Fin 128) :
    iblk0 V c 4 t (ix2 k j) = V c main_arg4 (ix2 k j) := by
  obtain ⟨-, -, -, -, -, -, -, -, -, -, e0, e1, -⟩ := idx_facts t
  show V c main_arg4 (((cfg0.win 4).blk t).view.emb (ix2 k j)) = _
  refine congrArg (V c main_arg4) (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

theorem read5 (c : Dev nD) (t : Fin cfg0.N) (j : Fin 128) :
    iblk0 V c 5 t (ix2 (0 : Fin 1) j) = V c main_v1 (ix2 (0 : Fin 1) j) := by
  obtain ⟨-, -, -, -, -, -, -, -, -, -, -, -, e0, e1⟩ := idx_facts t
  show V c main_v1 (((cfg0.win 5).blk t).view.emb (ix2 (0 : Fin 1) j)) = _
  refine congrArg (V c main_v1) (funext fun a => Fin.ext ?_)
  match a with
  | ⟨0, _⟩ => show win0_5.index t (0 : Fin 2) * 1 + 1 * 0 = 0; omega
  | ⟨1, _⟩ => show win0_5.index t (1 : Fin 2) * 128 + 1 * j.val = j.val; omega

/-- Entry (q, j) of the result block at point t is entry (1024·t + q, j) of the result. -/
theorem emb6 (t : Fin cfg0.N) (q : Fin 1024) (j : Fin 128) :
    ((cfg0.win 6).blk t).view.emb (ix2 q j) = ix2 (row t q) j := by
  obtain ⟨-, -, e0, e1, -⟩ := idx_facts t
  refine funext fun a => Fin.ext ?_
  match a with
  | ⟨0, _⟩ => show win0_6.index t (0 : Fin 2) * 1024 + 1 * q.val = t.val * 1024 + q.val; omega
  | ⟨1, _⟩ => show win0_6.index t (1 : Fin 2) * 128 + 1 * j.val = j.val; omega

/-- What point t writes back is block t of the gated rows. -/
theorem flushed_eq (c : Dev nD) (X : (⟨2, ![8192, 128]⟩ : Shape).Idx → EReal) (PD : (⟨2, ![64, 128]⟩ : Shape).Idx → EReal)
    (AW : (⟨2, ![128, 64]⟩ : Shape).Idx → EReal) (AB : (⟨1, ![64]⟩ : Shape).Idx → EReal)
    (SW : (⟨2, ![128, 128]⟩ : Shape).Idx → EReal) (SB : (⟨1, ![128]⟩ : Shape).Idx → EReal)
    (h0 : V c main_arg0 = X) (h1 : V c main_arg1 = PD) (h2 : V c main_arg2 = AW)
    (h3 : ∀ p : Fin 64, V c main_v0 (ix2 (0 : Fin 1) p) = AB (ix1 p)) (h4 : V c main_arg4 = SW)
    (h5 : ∀ j : Fin 128, V c main_v1 (ix2 (0 : Fin 1) j) = SB (ix1 j)) (t : Fin cfg0.N) :
    (dat0 (F := Ideal) V c).flushed 6 t = ((cfg0.win 6).blk t).view.read (Elt Ideal) (gatedArr X PD AW AB SW SB) := by
  show (cfg0.win 6).cut (grid0.coords t) ((dat0 V c).after 6 t) = _
  rw [after0_6]
  unfold out0_6
  rw [View.canon_unit_zero hz]
  simp only [View.ld_unit_zero (S := S1024x128) hz, View.ld_unit_zero (S := S64x128) hz, View.ld_unit_zero (S := S128x64) hz, View.ld_unit_zero (S := S1x64) hz, View.ld_unit_zero (S := S128x128) hz, View.ld_unit_zero (S := S1x128) hz]
  funext y
  obtain ⟨q, j, rfl⟩ : ∃ (q : Fin 1024) (j : Fin 128), y = ix2 q j := ⟨y 0, y 1, eq_ix2 y⟩
  show k0_pay1 (k0_pay2 (iblk0 V c 0 t) (iblk0 V c 2 t) (iblk0 V c 3 t) (iblk0 V c 1 t) (iblk0 V c 4 t) (iblk0 V c 5 t)) (ix2 q j)
    = gatedArr X PD AW AB SW SB (((cfg0.win 6).blk t).view.emb (ix2 q j))
  rw [emb6, gatedArr_apply]
  refine (Cert.KernelRows.gated_block_apply (iblk0 V c 0 t) (iblk0 V c 1 t) (iblk0 V c 2 t) (iblk0 V c 3 t) (iblk0 V c 4 t) (iblk0 V c 5 t) q j).trans ?_
  simp only [read0 V c t, read1 V c t, read2 V c t, read3 V c t, read4 V c t, read5 V c t, h0, h1, h2, h3, h4, h5]

/-- An index is in point t's block iff each coordinate is in the block's range. -/
theorem mem_blk (t : Fin cfg0.N) (i : S8192x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v3).slice (win0_6.rect t)).set ↔ _
  rw [View.set_slice_whole, Rect.mem_set_unit]
  exact Iff.rfl

/-- Row r lies in the block of point r / 1024: the blocks cover the array. -/
theorem cover (i : S8192x128.Idx) : ∃ t : Fin cfg0.N, (cfg0.win 6).flush t = true ∧ i ∈ ((cfg0.win 6).blk t).view.set := by
  have hi0 : (i 0).val < 8192 := (i 0).isLt
  have hi1 : (i 1).val < 128 := (i 1).isLt
  have hN : (i 0).val / 1024 < cfg0.N := by rw [show cfg0.N = 8 from N_0]; omega
  refine ⟨⟨(i 0).val / 1024, hN⟩, flush0_6 _, ?_⟩
  rw [mem_blk]
  obtain ⟨-, -, e0, e1, -⟩ := idx_facts ⟨(i 0).val / 1024, hN⟩
  intro a
  match a with
  | ⟨0, _⟩ =>
    show win0_6.index ⟨(i 0).val / 1024, hN⟩ (0 : Fin 2) * 1024 ≤ (i 0).val ∧ (i 0).val < win0_6.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, hN⟩ (1 : Fin 2) * 128 ≤ (i 1).val ∧ (i 1).val < win0_6.index ⟨(i 0).val / 1024, hN⟩ (1 : Fin 2) * 128 + 128
    rw [e1]; omega

/-- The result buffer after the region holds the gated rows. -/
theorem final (c : Dev nD) (X : (⟨2, ![8192, 128]⟩ : Shape).Idx → EReal) (PD : (⟨2, ![64, 128]⟩ : Shape).Idx → EReal)
    (AW : (⟨2, ![128, 64]⟩ : Shape).Idx → EReal) (AB : (⟨1, ![64]⟩ : Shape).Idx → EReal)
    (SW : (⟨2, ![128, 128]⟩ : Shape).Idx → EReal) (SB : (⟨1, ![128]⟩ : Shape).Idx → EReal)
    (h0 : V c main_arg0 = X) (h1 : V c main_arg1 = PD) (h2 : V c main_arg2 = AW)
    (h3 : ∀ p : Fin 64, V c main_v0 (ix2 (0 : Fin 1) p) = AB (ix1 p)) (h4 : V c main_arg4 = SW)
    (h5 : ∀ j : Fin 128, V c main_v1 (ix2 (0 : Fin 1) j) = SB (ix1 j)) :
    (dat0 (F := Ideal) V c).arrAt 6 cfg0.N = gatedArr X PD AW AB SW SB :=
  (dat0 (F := Ideal) V c).arrAt_eq_of_cover 6 (gatedArr X PD AW AB SW SB)
    (fun t _ => flushed_eq V c X PD AW AB SW SB h0 h1 h2 h3 h4 h5 t) cover

end Cert.KernelIdeal.Blocks0
end
-- ==== Proof.Blocks1.lean ====
/- The second region's result buffer after the run: the network's output.

   The region walks a grid of 25 column blocks by 8 row blocks, the row block moving fastest: point t is column
   block t / 8 and row block t % 8. There the kernel reads rows 1024·(t % 8) … of the gated rows, columns
   1280·(t / 8) … of the output weights and of the bias, and writes back that 1024 × 1280 tile of the result: at
   (q, v) the gated row against the weight column, plus the bias. The 200 tiles cover the 8192 × 32000 array. Stated
   at ANY contents V of the buffers at the region's entry, given what V holds at the three arrays it reads. -/
import proofs.«103157_j11338713661903_1_alg».proof.Proof.Gen.KernelIdeal.Frame
import proofs.«103157_j11338713661903_1_alg».proof.Proof.RowSpec
import proofs.«103157_j11338713661903_1_alg».proof.Proof.KernelRows
import Idealize.ShloMosaic.Lib.Pipeline.Value
import Idealize.ShloMosaic.Lib.ValueIdx

set_option maxRecDepth 16384
noncomputable section
namespace Cert.KernelIdeal.Blocks1
open Cert.KernelIdeal Cert.KernelIdeal.Gen Cert.RowSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-buffer access. -/
theorem hz : (![0, 0] : Fin 2 → Nat) = fun _ => 0 := funext fun a => by fin_cases a <;> rfl

/-- The index maps over the grid: rows move with t % 8, columns with t / 8. -/
theorem idx_facts : ∀ t : Fin cfg1.N, win1_0.index t (0 : Fin 2) = t.val % 8 ∧ win1_0.index t (1 : Fin 2) = 0
    ∧ win1_1.index t (0 : Fin 2) = 0 ∧ win1_1.index t (1 : Fin 2) = t.val / 8
    ∧ win1_2.index t (0 : Fin 2) = 0 ∧ win1_2.index t (1 : Fin 2) = t.val / 8
    ∧ win1_3.index t (0 : Fin 2) = t.val % 8 ∧ win1_3.index t (1 : Fin 2) = t.val / 8 :=
  (by decide +kernel : ∀ t : Fin grid1.N, _)

/-- The grid has 200 points. -/
theorem point_lt (t : Fin cfg1.N) : t.val < 200 := lt_of_lt_of_eq t.isLt N_1

/-- The row of the array that row q of point t's row block is. -/
def row (t : Fin cfg1.N) (q : Fin 1024) : Fin 8192 := ⟨t.val % 8 * 1024 + q.val, by have := q.isLt; omega⟩
/-- The column of the array that column v of point t's column block is. -/
def col (t : Fin cfg1.N) (v : Fin 1280) : Fin 32000 := ⟨t.val / 8 * 1280 + v.val, by have := point_lt t; have := v.isLt; omega⟩

/-- Row q of the gated block at point t is row 1024·(t % 8) + q of the gated rows. -/
theorem read0 (c : Dev nD) (t : Fin cfg1.N) (q : Fin 1024) (k : Fin 128) :
    iblk1 V c 0 t (ix2 q k) = V c main_v3 (ix2 (row t q) k) := by
  obtain ⟨e0, e1, -⟩ := idx_facts t
  show V c main_v3 (((cfg1.win 0).blk t).view.emb (ix2 q k)) = _
  refine congrArg (V c main_v3) (funext fun a => Fin.ext ?_)
  match a with
  | ⟨0, _⟩ => show win1_0.index t (0 : Fin 2) * 1024 + 1 * q.val = t.val % 8 * 1024 + q.val; omega
  | ⟨1, _⟩ => show win1_0.index t (1 : Fin 2) * 128 + 1 * k.val = k.val; omega

/-- Column v of the weight block at point t is column 1280·(t / 8) + v of the output weights. -/
theorem read1 (c : Dev nD) (t : Fin cfg1.N) (k : Fin 128) (v : Fin 1280) :
    iblk1 V c 1 t (ix2 k v) = V c main_v4 (ix2 k (col t v)) := by
  obtain ⟨-, -, e0, e1, -⟩ := idx_facts t
  show V c main_v4 (((cfg1.win 1).blk t).view.emb (ix2 k v)) = _
  refine congrArg (V c main_v4) (funext fun a => Fin.ext ?_)
  match a with
  | ⟨0, _⟩ => show win1_1.index t (0 : Fin 2) * 128 + 1 * k.val = k.val; omega
  | ⟨1, _⟩ => show win1_1.index t (1 : Fin 2) * 1280 + 1 * v.val = t.val / 8 * 1280 + v.val; omega

/-- The bias block likewise. -/
theorem read2 (c : Dev nD) (t : Fin cfg1.N) (v : Fin 1280) :
    iblk1 V c 2 t (ix2 (0 : Fin 1) v) = V c main_v2 (ix2 (0 : Fin 1) (col t v)) := by
  obtain ⟨-, -, -, -, e0, e1, -⟩ := idx_facts t
  show V c main_v2 (((cfg1.win 2).blk t).view.emb (ix2 (0 : Fin 1) v)) = _
  refine congrArg (V c main_v2) (funext fun a => Fin.ext ?_)
  match a with
  | ⟨0, _⟩ => show win1_2.index t (0 : Fin 2) * 1 + 1 * 0 = 0; omega
  | ⟨1, _⟩ => show win1_2.index t (1 : Fin 2) * 1280 + 1 * v.val = t.val / 8 * 1280 + v.val; omega

/-- Entry (q, v) of the result tile at point t is entry (1024·(t % 8) + q, 1280·(t / 8) + v) of the result. -/
theorem emb3 (t : Fin cfg1.N) (q : Fin 1024) (v : Fin 1280) :
    ((cfg1.win 3).blk t).view.emb (ix2 q v) = ix2 (row t q) (col t v) := by
  obtain ⟨-, -, -, -, -, -, e0, e1⟩ := idx_facts t
  refine funext fun a => Fin.ext ?_
  match a with
  | ⟨0, _⟩ => show win1_3.index t (0 : Fin 2) * 1024 + 1 * q.val = t.val % 8 * 1024 + q.val; omega
  | ⟨1, _⟩ => show win1_3.index t (1 : Fin 2) * 1280 + 1 * v.val = t.val / 8 * 1280 + v.val; omega

/-- What point t writes back is tile t of the network's output. -/
theorem flushed_eq (c : Dev nD) (X : (⟨2, ![8192, 128]⟩ : Shape).Idx → EReal) (PD : (⟨2, ![64, 128]⟩ : Shape).Idx → EReal)
    (AW : (⟨2, ![128, 64]⟩ : Shape).Idx → EReal) (AB : (⟨1, ![64]⟩ : Shape).Idx → EReal)
    (SW : (⟨2, ![128, 128]⟩ : Shape).Idx → EReal) (SB : (⟨1, ![128]⟩ : Shape).Idx → EReal)
    (OW : (⟨2, ![128, 32000]⟩ : Shape).Idx → EReal) (OB : (⟨1, ![32000]⟩ : Shape).Idx → EReal)
    (hg : V c main_v3 = gatedArr X PD AW AB SW SB) (hw : V c main_v4 = OW)
    (hb : ∀ v : Fin 32000, V c main_v2 (ix2 (0 : Fin 1) v) = OB (ix1 v)) (t : Fin cfg1.N) :
    (dat1 (F := Ideal) V c).flushed 3 t = ((cfg1.win 3).blk t).view.read (Elt Ideal) (network X PD AW AB SW SB OW OB) := by
  show (cfg1.win 3).cut (grid1.coords t) ((dat1 V c).after 3 t) = _
  rw [after1_3]
  unfold out1_3
  rw [View.canon_unit_zero hz]
  simp only [View.ld_unit_zero (S := S1024x128) hz, View.ld_unit_zero (S := S128x1280) hz, View.ld_unit_zero (S := S1x1280) hz]
  funext y
  obtain ⟨q, v, rfl⟩ : ∃ (q : Fin 1024) (v : Fin 1280), y = ix2 q v := ⟨y 0, y 1, eq_ix2 y⟩
  show k1_pay1 (iblk1 V c 0 t) (iblk1 V c 1 t) (iblk1 V c 2 t) (ix2 q v)
    = network X PD AW AB SW SB OW OB (((cfg1.win 3).blk t).view.emb (ix2 q v))
  rw [emb3, network_apply]
  refine (Cert.KernelRows.project_block_apply (iblk1 V c 0 t) (iblk1 V c 1 t) (iblk1 V c 2 t) q v).trans ?_
  simp only [read0 V c t, read1 V c t, read2 V c t, hg, hw, hb]

/-- An index is in point t's tile iff each coordinate is in the tile's range. -/
theorem mem_blk (t : Fin cfg1.N) (i : S8192x32000.Idx) :
    i ∈ ((cfg1.win 3).blk t).view.set ↔ ∀ a : Fin 2, win1_3.index t a * S1024x1280.size a ≤ (i a).val ∧ (i a).val < win1_3.index t a * S1024x1280.size a + S1024x1280.size a := by
  show i ∈ ((View.whole main_v5).slice (win1_3.rect t)).set ↔ _
  rw [View.set_slice_whole, Rect.mem_set_unit]
  exact Iff.rfl

/-- Entry (r, v) lies in the tile of point 8·(v / 1280) + r / 1024: the tiles cover the array. -/
theorem cover (i : S8192x32000.Idx) : ∃ t : Fin cfg1.N, (cfg1.win 3).flush t = true ∧ i ∈ ((cfg1.win 3).blk t).view.set := by
  have hi0 : (i 0).val < 8192 := (i 0).isLt
  have hi1 : (i 1).val < 32000 := (i 1).isLt
  have hN : (i 1).val / 1280 * 8 + (i 0).val / 1024 < cfg1.N := by rw [show cfg1.N = 200 from N_1]; omega
  refine ⟨⟨(i 1).val / 1280 * 8 + (i 0).val / 1024, hN⟩, flush1_3 _, ?_⟩
  rw [mem_blk]
  obtain ⟨-, -, -, -, -, -, e0, e1⟩ := idx_facts ⟨(i 1).val / 1280 * 8 + (i 0).val / 1024, hN⟩
  intro a
  match a with
  | ⟨0, _⟩ =>
    show win1_3.index ⟨(i 1).val / 1280 * 8 + (i 0).val / 1024, hN⟩ (0 : Fin 2) * 1024 ≤ (i 0).val ∧ (i 0).val < win1_3.index ⟨(i 1).val / 1280 * 8 + (i 0).val / 1024, hN⟩ (0 : Fin 2) * 1024 + 1024
    rw [e0]; show ((i 1).val / 1280 * 8 + (i 0).val / 1024) % 8 * 1024 ≤ (i 0).val ∧ (i 0).val < ((i 1).val / 1280 * 8 + (i 0).val / 1024) % 8 * 1024 + 1024; omega
  | ⟨1, _⟩ =>
    show win1_3.index ⟨(i 1).val / 1280 * 8 + (i 0).val / 1024, hN⟩ (1 : Fin 2) * 1280 ≤ (i 1).val ∧ (i 1).val < win1_3.index ⟨(i 1).val / 1280 * 8 + (i 0).val / 1024, hN⟩ (1 : Fin 2) * 1280 + 1280
    rw [e1]; show ((i 1).val / 1280 * 8 + (i 0).val / 1024) / 8 * 1280 ≤ (i 1).val ∧ (i 1).val < ((i 1).val / 1280 * 8 + (i 0).val / 1024) / 8 * 1280 + 1280; omega

/-- The result buffer after the region holds the network's output. -/
theorem final (c : Dev nD) (X : (⟨2, ![8192, 128]⟩ : Shape).Idx → EReal) (PD : (⟨2, ![64, 128]⟩ : Shape).Idx → EReal)
    (AW : (⟨2, ![128, 64]⟩ : Shape).Idx → EReal) (AB : (⟨1, ![64]⟩ : Shape).Idx → EReal)
    (SW : (⟨2, ![128, 128]⟩ : Shape).Idx → EReal) (SB : (⟨1, ![128]⟩ : Shape).Idx → EReal)
    (OW : (⟨2, ![128, 32000]⟩ : Shape).Idx → EReal) (OB : (⟨1, ![32000]⟩ : Shape).Idx → EReal)
    (hg : V c main_v3 = gatedArr X PD AW AB SW SB) (hw : V c main_v4 = OW)
    (hb : ∀ v : Fin 32000, V c main_v2 (ix2 (0 : Fin 1) v) = OB (ix1 v)) :
    (dat1 (F := Ideal) V c).arrAt 3 cfg1.N = network X PD AW AB SW SB OW OB :=
  (dat1 (F := Ideal) V c).arrAt_eq_of_cover 3 (network X PD AW AB SW SB OW OB)
    (fun t _ => flushed_eq V c X PD AW AB SW SB OW OB hg hw hb t) cover

end Cert.KernelIdeal.Blocks1
end
-- ==== Proof.KernelValue.lean ====
/- The kernel program's result as one function of its arguments.

   The run of the two regions (the launch theorem called once more with the result buffer named) leaves the result
   buffer at what the second region's write-backs leave. The second region finds the first region's gated rows, the
   output weights and the reshaped output bias, and turns them into the network's output; the first region finds the
   argument arrays and the two reshaped biases, and turns them into the gated rows. -/
import proofs.«103157_j11338713661903_1_alg».proof.Proof.KernelRun
import proofs.«103157_j11338713661903_1_alg».proof.Proof.Entry
import proofs.«103157_j11338713661903_1_alg».proof.Proof.Blocks0
import proofs.«103157_j11338713661903_1_alg».proof.Proof.Blocks1

set_option maxRecDepth 16384

noncomputable section

namespace Cert.KernelIdeal.Result

open Cert.KernelIdeal Cert.KernelIdeal.Gen Cert.RowSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- After the first region its result buffer holds the gated rows of the input. -/
theorem gated_eq (c : Dev nD) :
    (dat0 (F := Ideal) (V1 m ρ) c).arrAt 6 cfg0.N
      = gatedArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  Blocks0.final (V1 m ρ) c _ _ _ _ _ _ (Entry.V1_arg0 m ρ c) (Entry.V1_arg1 m ρ c) (Entry.V1_arg2 m ρ c)
    (Entry.V1_v0 m ρ c) (Entry.V1_arg4 m ρ c) (Entry.V1_v1 m ρ c)

/-- After the second region the program's result buffer holds the network's output. -/
theorem result_eq (c : Dev nD) :
    W4 m ρ c (Proc.devRef .tc main_v5)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  (W4_arr m ρ c 3).trans
    (Blocks1.final (V3 m ρ) c _ _ _ _ _ _ _ _ ((Entry.V3_v3 m ρ c).trans (gated_eq m ρ c)) (Entry.V3_v4 m ρ c) (Entry.V3_v2 m ρ c))

/-- Every weakly fair execution of the kernel program terminates with the result buffer at the network's output of
    the arguments, and the arguments as launched. -/
theorem run : θ_run defs (onTc (τ := τ) (main (F := Ideal))) ⟨m, fun _ => 0, ρ⟩ (fun r => ∀ c : Dev nD,
      r.2.mem ((c.tc : Thread nD τ).loc main_v5)
        = network (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.ValueRun.run m ρ)

end Cert.KernelIdeal.Result

end
-- ==== Proof.lean ====
/- The certificate of a softmax-attention codebook layer with a self-prediction gate and a vocabulary projection:
   a two-kernel program against its jnp reference, equal on the extended reals.

   On the extended reals both programs compute, for each of the 8192 input rows, the row-wise function of
   Proof/RowSpec.lean: scores against 64 patterns, their softmax, the row rebuilt from the dictionary, the logistic
   gate of the length of the self-prediction's error, and the projection of the gated row to 32000 outputs. The
   kernel's changes of float format are the identity there, its matrix products into a zero accumulator and the
   reference's products are the same finite sums, its lane reductions and the reference's reductions the same sums
   and the same maximum, and its logistic operation IS the reference's 1 / (1 + exp (−s)). The kernel cuts the rows
   into blocks of 1024 and the outputs into tiles of 1024 × 1280; since every quantity belongs to one row, the
   cutting leaves nothing in the result (Proof/Blocks0.lean, Proof/Blocks1.lean). No law used needs a finite
   operand, so the precondition is never opened.

   The three frames: the two kernel programs' are generated; the reference's is its generated run with the result
   dropped. The idealization rewrote no operation, so there is nothing to preserve. -/
import proofs.«103157_j11338713661903_1_alg».proof.Defs
import proofs.«103157_j11338713661903_1_alg».proof.Proof.Gen.Kernel
import proofs.«103157_j11338713661903_1_alg».proof.Proof.Gen.Kernel.Skeleton
import proofs.«103157_j11338713661903_1_alg».proof.Proof.Gen.Kernel.Launch
import proofs.«103157_j11338713661903_1_alg».proof.Proof.Gen.Kernel.Points
import proofs.«103157_j11338713661903_1_alg».proof.Proof.Gen.Kernel.Frame
import proofs.«103157_j11338713661903_1_alg».proof.Proof.Gen.KernelIdeal
import proofs.«103157_j11338713661903_1_alg».proof.Proof.Gen.KernelIdeal.Skeleton
import proofs.«103157_j11338713661903_1_alg».proof.Proof.Gen.KernelIdeal.Launch
import proofs.«103157_j11338713661903_1_alg».proof.Proof.Gen.KernelIdeal.Points
import proofs.«103157_j11338713661903_1_alg».proof.Proof.Gen.KernelIdeal.Frame
import proofs.«103157_j11338713661903_1_alg».proof.Proof.Gen.ReferenceIdeal
import proofs.«103157_j11338713661903_1_alg».proof.Proof.Gen.Pre_finite_inputs
import proofs.«103157_j11338713661903_1_alg».proof.Proof.Gen.ReferenceIdeal.Run
import proofs.«103157_j11338713661903_1_alg».proof.Proof.Gen.ReferenceIdeal.Read
import proofs.«103157_j11338713661903_1_alg».proof.Proof.RefRows
import proofs.«103157_j11338713661903_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network's output of the arguments: the kernel program by its run read block by
    block, the reference by its run read operation by operation; the arguments agree, so the two outputs are one. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.RefRows.result_eq]
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
